-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x4096 : Shape := ⟨3, ![4096, 2, 4096]⟩
abbrev S16384x4096 : Shape := ⟨2, ![16384, 4096]⟩
abbrev S16384 : Shape := ⟨1, ![16384]⟩
abbrev S_ : Shape := ⟨0, ![]⟩

class Facts : Prop where
  bcast_S_S4096x2x4096 : S_.BroadcastsInDim S4096x2x4096 (![] : Fin 0 → Fin S4096x2x4096.rank)
  reducesTo_S4096x2x4096_S_d0_1_2 : S4096x2x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4096x2x4096 .f32) (main_arg1 : FVec F S16384x4096 .f32) (main_arg2 : FVec F S16384 .f32) : IVec S_ 1 :=
  let main_v0 : FVec F S4096x2x4096 .f32 := Host.absf main_arg0
  let main_cst : FVec F S_ .f32 := constant S_ .f32 0x7F800000#32
  let main_v1 : FVec F S4096x2x4096 .f32 := broadcastInDim S4096x2x4096 ![] bcast_S_S4096x2x4096 main_cst
  let main_v2 : IVec S4096x2x4096 1 := cmpf .olt main_v0 main_v1
  let main_c : IVec S_ 1 := constantI S_ 1 1#1
  let main_v3 : IVec S_ 1 := (fun x v => Host.reduce IntOp.andi x v reducesTo_S4096x2x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4096x2x4096 : Shape := ⟨3, ![4096, 2, 4096]⟩
abbrev S16384x4096 : Shape := ⟨2, ![16384, 4096]⟩
abbrev S16384 : Shape := ⟨1, ![16384]⟩
abbrev S8192x4096 : Shape := ⟨2, ![8192, 4096]⟩
abbrev S1x16384 : Shape := ⟨2, ![1, 16384]⟩
abbrev S8192x16384 : Shape := ⟨2, ![8192, 16384]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩
abbrev S4096x2x16384 : Shape := ⟨3, ![4096, 2, 16384]⟩

abbrev nBuf : Space → Nat
  | .hbm => 9
  | .vmem => 8
  | .smem => 0
  | _ => 0

abbrev bufTy : (tb : Table) → Fin (tcTables nBuf tb) → BufTy
  | .hbm, ⟨0, _⟩ => ⟨S4096x2x4096, .f32⟩
  | .hbm, ⟨1, _⟩ => ⟨S16384x4096, .f32⟩
  | .hbm, ⟨2, _⟩ => ⟨S16384, .f32⟩
  | .hbm, ⟨3, _⟩ => ⟨S8192x4096, .f32⟩
  | .hbm, ⟨4, _⟩ => ⟨S8192x4096, .bf16⟩
  | .hbm, ⟨5, _⟩ => ⟨S16384x4096, .bf16⟩
  | .hbm, ⟨6, _⟩ => ⟨S1x16384, .f32⟩
  | .hbm, ⟨7, _⟩ => ⟨S8192x16384, .f32⟩
  | .hbm, ⟨8, _⟩ => ⟨S4096x2x16384, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4096x2x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4096x2x4096_S8192x4096 : S4096x2x4096.ShapeCasts S8192x4096
  bitsLt_bf16_f32 : FTy.bits .bf16 < FTy.bits .f32
  shapeCasts_S16384_S1x16384 : S16384.ShapeCasts S1x16384
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x16384_S4096x2x16384 : S8192x16384.ShapeCasts S4096x2x16384
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .bf16 = 32 ∨ (Rect.block (s := S16384x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x16384.size a
  hwx0_3 : ∀ i : grid0.Coords, EltTy.bits .f32 = 32 ∨ (Rect.block (s := S8192x16384) S512x1024.size (cc0_transform_3 i) (hinb0_3 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2x4096 : Shape := ⟨3, ![4096, 2, 4096]⟩
abbrev S16384x4096 : Shape := ⟨2, ![16384, 4096]⟩
abbrev S16384 : Shape := ⟨1, ![16384]⟩
abbrev S4096x2x16384 : Shape := ⟨3, ![4096, 2, 16384]⟩
abbrev S1x1x16384 : Shape := ⟨3, ![1, 1, 16384]⟩

abbrev nBuf : Space → Nat
  | .hbm => 7
  | .vmem => 0
  | .smem => 0
  | _ => 0

abbrev bufTy : (tb : Table) → Fin (tcTables nBuf tb) → BufTy
  | .hbm, ⟨0, _⟩ => ⟨S4096x2x4096, .f32⟩
  | .hbm, ⟨1, _⟩ => ⟨S16384x4096, .f32⟩
  | .hbm, ⟨2, _⟩ => ⟨S16384, .f32⟩
  | .hbm, ⟨3, _⟩ => ⟨S4096x2x16384, .f32⟩
  | .hbm, ⟨4, _⟩ => ⟨S1x1x16384, .f32⟩
  | .hbm, ⟨5, _⟩ => ⟨S4096x2x16384, .f32⟩
  | .hbm, ⟨6, _⟩ => ⟨S4096x2x16384, .f32⟩
  | _, _ => ⟨S4096x2x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S16384_S1x1x16384_2 : S16384.BroadcastsInDim S1x1x16384 (![2] : Fin 1 → Fin S1x1x16384.rank)
  bcast_S1x1x16384_S4096x2x16384_0_1_2 : S1x1x16384.BroadcastsInDim S4096x2x16384 (![0, 1, 2] : Fin 3 → Fin S4096x2x16384.rank)
  dot_S4096x2x4096_S16384x4096_S4096x2x16384_2_1_01_0_n_n_wf : DotDims.WF S4096x2x4096 S16384x4096 S4096x2x16384 [2] [1] [0, 1] [0] [] []

variable [Facts₀]

def dot_S4096x2x4096_S16384x4096_S4096x2x16384_2_1_01_0_n_n : DotDims S4096x2x4096 S16384x4096 S4096x2x16384 where
  lhsContracting := [2]
  rhsContracting := [1]
  lhsNonContracting := [0, 1]
  rhsNonContracting := [0]
  lhsBatch := []
  rhsBatch := []
  wf := dot_S4096x2x4096_S16384x4096_S4096x2x16384_2_1_01_0_n_n_wf

class Facts : Prop extends Facts₀ where

variable [Facts]
-- ==== Proof.AffineSpec.lean ====
/-
  The function both programs compute, over the extended reals: a dense layer with bias,

      out[s, b, o] = (Σ_{k < 4096} x[s, b, k] · w[o, k]) + bias[o]

  for x : [4096, 2, 4096], w : [16384, 4096], bias : [16384]. The tiled product works on x with its two leading
  axes merged into one row axis r = 2·s + b (the row-major order of (s, b)) and on the bias as a one-row matrix:

      flat[r, o] = (Σ_{k < 4096} x2[r, k] · w[o, k]) + b2[0, o].

  Through that identification of rows the two are one function (`denseFlat_row`). No entry has to be finite for it: the
  same sum, over the same index set in the same arrangement, and the same addition stand on both sides.
-/
import Idealize.ShloMosaic.PureOps.Ideal
import Idealize.ShloMosaic.Lib.ValueIdx

noncomputable section

open scoped BigOperators

namespace Cert.Affine

open Idealize.ShloMosaic Idealize.ShloMosaic.ValueIdx

/-- The shapes, spelt out: the input with (sequence, batch, feature) axes, the weight, the bias, the result; and the
    row-merged input, the one-row bias and the row-merged result. -/
abbrev X3 : Shape := ⟨3, ![4096, 2, 4096]⟩
abbrev W2 : Shape := ⟨2, ![16384, 4096]⟩
abbrev B1 : Shape := ⟨1, ![16384]⟩
abbrev O3 : Shape := ⟨3, ![4096, 2, 16384]⟩
abbrev X2 : Shape := ⟨2, ![8192, 4096]⟩
abbrev B2 : Shape := ⟨2, ![1, 16384]⟩
abbrev O2 : Shape := ⟨2, ![8192, 16384]⟩

/-- The dense layer: entry (s, b, o) is the inner product of x's row (s, b) with w's row o, plus bias o. -/
def dense (x : X3.Idx → EReal) (w : W2.Idx → EReal) (bias : B1.Idx → EReal) : O3.Idx → EReal :=
  fun i => (∑ k : Fin 4096, x (ix3 (n0 := 4096) (n1 := 2) (n2 := 4096) (i 0) (i 1) k)
      * w (ix2 (n0 := 16384) (n1 := 4096) (i 2) k)) + bias (ix1 (n := 16384) (i 2))

/-- The same layer on merged rows: entry (r, o) is the inner product of row r of x2 with row o of w, plus the one-row
    bias at column o. -/
def denseFlat (x2 : X2.Idx → EReal) (w : W2.Idx → EReal) (b2 : B2.Idx → EReal) : O2.Idx → EReal :=
  fun j => (∑ k : Fin 4096, x2 (ix2 (n0 := 8192) (n1 := 4096) (j 0) k)
      * w (ix2 (n0 := 16384) (n1 := 4096) (j 1) k)) + b2 (ix2 (n0 := 1) (n1 := 16384) 0 (j 1))

/-- Row r = 2·s + b of the merged layer is row (s, b) of the layer, when x2's row r is x's row (s, b) and the one-row
    bias is the bias. -/
theorem denseFlat_row (x : X3.Idx → EReal) (w : W2.Idx → EReal) (bias : B1.Idx → EReal)
    (x2 : X2.Idx → EReal) (b2 : B2.Idx → EReal) (s : Fin 4096) (b : Fin 2) (o : Fin 16384) (r : Fin 8192)
    (hr : r.val = s.val * 2 + b.val)
    (hx : ∀ k : Fin 4096, x2 (ix2 (n0 := 8192) (n1 := 4096) r k) = x (ix3 (n0 := 4096) (n1 := 2) (n2 := 4096) s b k))
    (hb : b2 (ix2 (n0 := 1) (n1 := 16384) 0 o) = bias (ix1 (n := 16384) o)) :
    denseFlat x2 w b2 (ix2 (n0 := 8192) (n1 := 16384) r o) = dense x w bias (ix3 (n0 := 4096) (n1 := 2) (n2 := 16384) s b o) := by
  unfold denseFlat dense
  show (∑ k : Fin 4096, x2 (ix2 r k) * w (ix2 o k)) + b2 (ix2 0 o) = (∑ k : Fin 4096, x (ix3 s b k) * w (ix2 o k)) + bias (ix1 o)
  rw [hb]
  exact congrArg (· + bias (ix1 o)) (Finset.sum_congr rfl fun k _ => by rw [hx k])

end Cert.Affine

end
-- ==== Proof.RefDense.lean ====
/-
  The reference, read index by index: its result is the dense layer `Cert.Affine.dense` of its three arguments.
  Entry (s, b, o) of the contraction of x's last axis with w's last axis is Σ_k x[s, b, k] · w[o, k]; the bias, stretched
  first to a 1 × 1 × 16384 array and then over the two leading axes, reads bias[o] there; their sum is the layer's entry.
-/
import proofs.«150197_j25958782337557_1_alg».proof.Proof.Gen.ReferenceIdeal.Read
import proofs.«150197_j25958782337557_1_alg».proof.Proof.AffineSpec

noncomputable section

open scoped BigOperators

namespace Cert.ReferenceIdeal.RefValue

open Cert.ReferenceIdeal Cert.ReferenceIdeal.Read Cert.Affine Idealize.ShloMosaic Idealize.ShloMosaic.ValueIdx

/-- The contraction's left operand index at output (s, b, o) and position k is (s, b, k). -/
theorem lidx_eq (i : S4096x2x16384.Idx) (k : Fin 4096) :
    lidx_main_v0 i k = ix3 (n0 := 4096) (n1 := 2) (n2 := 4096) (i 0) (i 1) k :=
  funext fun a => Fin.ext (by match a with | ⟨0, _⟩ => rfl | ⟨1, _⟩ => rfl | ⟨2, _⟩ => rfl)

/-- Its right operand index there is (o, k). -/
theorem ridx_eq (i : S4096x2x16384.Idx) (k : Fin 4096) :
    ridx_main_v0 i k = ix2 (n0 := 16384) (n1 := 4096) (i 2) k :=
  funext fun a => Fin.ext (by match a with | ⟨0, _⟩ => rfl | ⟨1, _⟩ => rfl)

/-- Through both stretches the bias is read at o. -/
theorem bidx_eq (i : S4096x2x16384.Idx) : idx_main_v1 (idx_main_v2 i) = ix1 (n := 16384) (i 2) :=
  funext fun a => Fin.ext (by match a with | ⟨0, _⟩ => rfl)

/-- The reference's result is the dense layer of its arguments. -/
theorem result_eq_dense (x : (⟨S4096x2x4096, .f32⟩ : BufTy).Contents (Elt Ideal)) (w : (⟨S16384x4096, .f32⟩ : BufTy).Contents (Elt Ideal))
    (bias : (⟨S16384, .f32⟩ : BufTy).Contents (Elt Ideal)) :
    val_main_v3 (F := Ideal) x w bias = dense x w bias := by
  funext i
  rw [val_main_v3_apply, val_main_v0_apply, val_main_v2_apply, val_main_v1_apply]
  simp only [lidx_eq, ridx_eq, bidx_eq]
  rfl

end Cert.ReferenceIdeal.RefValue

end
-- ==== Proof.BlockProduct.lean ====
/-
  One grid point's arithmetic, read at an entry. The body multiplies a 512 × 4096 block of the (row-merged) input by
  the transpose of a 1024 × 4096 block of the weight, into a zero accumulator, and adds the 1 × 1024 bias block
  stretched over the 512 rows. Over the extended reals entry (p, q) of what it stores is

      (Σ_{k < 4096} xblk[p, k] · wblk[q, k]) + bblk[0, q]:

  the matrix product into zero is the bare sum (0 + a = a), both operands are contracted along their second axis, and the
  stretched bias reads its one row.
-/
import proofs.«150197_j25958782337557_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-! ## The product's operand indices, axis by axis -/

/-- The left operand's row is the output's row. -/
theorem lhs_row (j : S512x1024.Idx) (q : dot_S512x4096_S1024x4096_S512x1024_1_1_0_0_n_n.contr.Idx) :
    (dot_S512x4096_S1024x4096_S512x1024_1_1_0_0_n_n.lhsIdx j q 0).val = (j 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
/-- The left operand's column is the contraction position. -/
theorem lhs_col (j : S512x1024.Idx) (q : dot_S512x4096_S1024x4096_S512x1024_1_1_0_0_n_n.contr.Idx) :
    (dot_S512x4096_S1024x4096_S512x1024_1_1_0_0_n_n.lhsIdx j q 1).val = (q ⟨0, by decide⟩).val :=
  dot_S512x4096_S1024x4096_S512x1024_1_1_0_0_n_n.lhsIdx_val_of_single rfl j q
/-- The right operand's row is the output's column: the weight block enters transposed. -/
theorem rhs_row (j : S512x1024.Idx) (q : dot_S512x4096_S1024x4096_S512x1024_1_1_0_0_n_n.contr.Idx) :
    (dot_S512x4096_S1024x4096_S512x1024_1_1_0_0_n_n.rhsIdx j q 0).val = (j 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
/-- The right operand's column is the contraction position. -/
theorem rhs_col (j : S512x1024.Idx) (q : dot_S512x4096_S1024x4096_S512x1024_1_1_0_0_n_n.contr.Idx) :
    (dot_S512x4096_S1024x4096_S512x1024_1_1_0_0_n_n.rhsIdx j q 1).val = (q ⟨0, by decide⟩).val :=
  dot_S512x4096_S1024x4096_S512x1024_1_1_0_0_n_n.rhsIdx_val_of_single rfl j q

/-! ## The product and the stretched bias at an entry -/

/-- The block product into a zero accumulator, at entry (p, q): the inner product of row p of the left block with
    row q of the right block. -/
theorem product_apply (a : FVec Ideal S512x4096 .bf16) (b : FVec Ideal S1024x4096 .bf16) (p : Fin 512) (q : Fin 1024) :
    FloatOps.matmul (F := Ideal) dot_S512x4096_S1024x4096_S512x1024_1_1_0_0_n_n none a b (constant (F := Ideal) S512x1024 .f32 0x00000000#32)
        (ix2 (n0 := 512) (n1 := 1024) p q)
      = ∑ k : Fin 4096, a (ix2 (n0 := 512) (n1 := 4096) p k) * b (ix2 (n0 := 1024) (n1 := 4096) q k) := by
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 (n0 := 512) (n1 := 1024) p q) ((contrEquiv1 dot_S512x4096_S1024x4096_S512x1024_1_1_0_0_n_n 4096 rfl rfl).symm k) = ix2 (n0 := 512) (n1 := 4096) p k := funext fun c => Fin.ext (by
    match c with
    | ⟨0, _⟩ => exact lhs_row _ _
    | ⟨1, _⟩ => exact (lhs_col _ _).trans hk)
  have er : dot_S512x4096_S1024x4096_S512x1024_1_1_0_0_n_n.rhsIdx (ix2 (n0 := 512) (n1 := 1024) p q) ((contrEquiv1 dot_S512x4096_S1024x4096_S512x1024_1_1_0_0_n_n 4096 rfl rfl).symm k) = ix2 (n0 := 1024) (n1 := 4096) q k := funext fun c => Fin.ext (by
    match c with
    | ⟨0, _⟩ => exact rhs_row _ _
    | ⟨1, _⟩ => exact (rhs_col _ _).trans hk)
  rw [el, er]

/-- The one-row bias block stretched over 512 rows reads, at (p, q), its row 0 at column q. -/
theorem stretched_apply {α : Type} (v : S1x1024.Idx → α) (p : Fin 512) (q : Fin 1024) :
    broadcastTo S512x1024 v broadcasts_S1x1024_S512x1024 (ix2 (n0 := 512) (n1 := 1024) p q) = v (ix2 (n0 := 1) (n1 := 1024) 0 q) :=
  broadcastTo_apply v broadcasts_S1x1024_S512x1024 _ _ (fun c => match c with
    | ⟨0, _⟩ => by show (0 : Nat) = if (1 : Nat) = 1 then 0 else p.val; rw [if_pos rfl]
    | ⟨1, _⟩ => by show q.val = if (1024 : Nat) = 1 then 0 else q.val; rw [if_neg (by decide)])

/-! ## What the body stores -/

/-- Entry (p, q) of the stored block: the inner product of the input block's row p with the weight block's row q,
    plus the bias block at column q. -/
theorem stored_apply (x0 : Vec Ideal S512x4096 .bf16) (x1 : Vec Ideal S1024x4096 .bf16) (x2 : Vec Ideal S1x1024 .f32)
    (p : Fin 512) (q : Fin 1024) :
    k0_pay1 (F := Ideal) x0 x1 x2 (ix2 (n0 := 512) (n1 := 1024) p q)
      = (∑ k : Fin 4096, x0 (ix2 (n0 := 512) (n1 := 4096) p k) * x1 (ix2 (n0 := 1024) (n1 := 4096) q k))
        + x2 (ix2 (n0 := 1) (n1 := 1024) 0 q) := by
  unfold k0_pay1
  simp only [shapeCast_self]
  show FloatOps.matmul (F := Ideal) dot_S512x4096_S1024x4096_S512x1024_1_1_0_0_n_n none x0 x1 (constant (F := Ideal) S512x1024 .f32 0x00000000#32) (ix2 (n0 := 512) (n1 := 1024) p q)
      + broadcastTo S512x1024 x2 broadcasts_S1x1024_S512x1024 (ix2 (n0 := 512) (n1 := 1024) p q) = _
  rw [product_apply, stretched_apply]

end Cert.KernelIdeal.BlockValue

end
-- ==== Proof.Tiles.lean ====
/-
  From one grid point to the whole result array of the tiled product.

  The grid has 16 × 16 points. Point t works on the tile (mt, nt) of the 8192 × 16384 result, 512 rows by 1024 columns:
  its input block is rows 512·mt … 512·mt + 511 of the row-merged input (all 4096 columns), its weight block rows
  1024·nt … 1024·nt + 1023 of the weight, its bias block columns 1024·nt … of the one-row bias. So entry (p, q) of what the
  point writes back,

      (Σ_k xblk[p, k] · wblk[q, k]) + bblk[0, q],

  is entry (512·mt + p, 1024·nt + q) of `denseFlat` of the three arrays as the region finds them: every tile is the
  restriction of that one function. The 256 tiles cover the result array (row r lies in tile row r / 512, column o in
  tile column o / 1024), so after the last write-back the array IS `denseFlat` of the three arrays.
-/
import proofs.«150197_j25958782337557_1_alg».proof.Proof.Gen.KernelIdeal.Frame
import proofs.«150197_j25958782337557_1_alg».proof.Proof.BlockProduct
import proofs.«150197_j25958782337557_1_alg».proof.Proof.AffineSpec
import Idealize.ShloMosaic.Lib.Pipeline.Value
import Idealize.ShloMosaic.Lib.ValueIdx

noncomputable section

open scoped BigOperators

open Idealize.ShloMosaic Idealize.ShloMosaic.TcCoe Idealize.SL.Sem
open Idealize.ShloMosaic.Pipeline (Dat)

namespace Cert.KernelIdeal.TileValue

open Cert.KernelIdeal Cert.KernelIdeal.Gen Cert.KernelIdeal.BlockValue Cert.Affine Idealize.ShloMosaic.ValueIdx

variable (m : (ℓ : Loc nD τ sig) → Buf (Elt Ideal) ℓ)

/-- The three arrays as the region finds them, as plain functions of an index into the extended reals. -/
abbrev xFound (c : Dev nD) : X2.Idx → EReal := V m c main_v1
abbrev wFound (c : Dev nD) : W2.Idx → EReal := V m c main_v2
abbrev bFound (c : Dev nD) : B2.Idx → EReal := V m c main_v3

theorem origin_zero : (![0, 0] : Fin 2 → Nat) = fun _ => 0 := funext fun a => by fin_cases a <;> rfl

/-! ## Which tile a point works on -/

/-- The index maps over the grid: the input block's row tile is the result's row tile, the weight's and the bias's
    tile is the result's column tile, the full-width axes stay at block 0, and there are 16 tiles each way. -/
theorem tile_index : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) < 16 ∧ win0_3.index t (1 : Fin 2) < 16 :=
  (by decide +kernel : ∀ t : Fin grid0.N, _)

/-- Every tile is some point's. -/
theorem tile_onto : ∀ (q0 : Fin 16) (q1 : Fin 16), ∃ t : Fin cfg0.N, win0_3.index t = ![q0.val, q1.val] :=
  (by decide +kernel : ∀ (q0 : Fin 16) (q1 : Fin 16), ∃ t : Fin grid0.N, win0_3.index t = ![q0.val, q1.val])

/-! ## The blocks a point reads, as entries of the arrays -/

/-- Entry (p, k) of the input block at point t is row 512·mt + p, column k of the input as found. -/
theorem xblk_apply (c : Dev nD) (t : Fin cfg0.N) (p : Fin 512) (k : Fin 4096) (r : Fin 8192)
    (hr : r.val = win0_3.index t (0 : Fin 2) * 512 + p.val) :
    (iblk m c 0 t : Vec Ideal S512x4096 .bf16) (ix2 (n0 := 512) (n1 := 4096) p k) = xFound m c (ix2 (n0 := 8192) (n1 := 4096) r k) := by
  obtain ⟨e0, e1, -⟩ := tile_index t
  unfold iblk
  rw [View.read_apply]
  show V m c main_v1 _ = V m c main_v1 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 4096 + 1 * k.val = k.val; rw [e1]; omega

/-- Entry (q, k) of the weight block at point t is row 1024·nt + q, column k of the weight as found. -/
theorem wblk_apply (c : Dev nD) (t : Fin cfg0.N) (q : Fin 1024) (k : Fin 4096) (o : Fin 16384)
    (ho : o.val = win0_3.index t (1 : Fin 2) * 1024 + q.val) :
    (iblk m c 1 t : Vec Ideal S1024x4096 .bf16) (ix2 (n0 := 1024) (n1 := 4096) q k) = wFound m c (ix2 (n0 := 16384) (n1 := 4096) o k) := by
  obtain ⟨-, -, e2, e3, -⟩ := tile_index t
  unfold iblk
  rw [View.read_apply]
  show V m c main_v2 _ = V m c main_v2 _
  congr 1
  funext a
  apply Fin.ext
  match a with
  | ⟨0, _⟩ => show win0_1.index t (0 : Fin 2) * 1024 + 1 * q.val = o.val; rw [e2, ho]; omega
  | ⟨1, _⟩ => show win0_1.index t (1 : Fin 2) * 4096 + 1 * k.val = k.val; rw [e3]; omega

/-- Entry (0, q) of the bias block at point t is column 1024·nt + q of the one-row bias as found. -/
theorem bblk_apply (c : Dev nD) (t : Fin cfg0.N) (q : Fin 1024) (o : Fin 16384)
    (ho : o.val = win0_3.index t (1 : Fin 2) * 1024 + q.val) :
    (iblk m c 2 t : Vec Ideal S1x1024 .f32) (ix2 (n0 := 1) (n1 := 1024) 0 q) = bFound m c (ix2 (n0 := 1) (n1 := 16384) 0 o) := by
  obtain ⟨-, -, -, -, e4, e5, -⟩ := tile_index t
  unfold iblk
  rw [View.read_apply]
  show V m c main_v3 _ = V m c main_v3 _
  congr 1
  funext a
  apply Fin.ext
  match a with
  | ⟨0, _⟩ => show win0_2.index t (0 : Fin 2) * 1 + 1 * 0 = 0; rw [e4]
  | ⟨1, _⟩ => show win0_2.index t (1 : Fin 2) * 1024 + 1 * q.val = o.val; rw [e5, ho]; omega

/-! ## What a point writes back -/

/-- Point t writes back its tile of `denseFlat` of the three arrays as found. -/
theorem flushed_eq (c : Dev nD) (t : Fin cfg0.N) :
    (dats m 0 c).flushed 3 t = ((cfg0.win 3).blk t).view.read (Elt Ideal) (denseFlat (xFound m c) (wFound m c) (bFound m c)) := by
  show (cfg0.win 3).cut (grid0.coords t) ((dats m 0 c).after 3 t) = _
  rw [after0_3]
  unfold out0_3
  rw [View.canon_unit_zero origin_zero]
  simp only [View.ld_unit_zero (S := S512x4096) origin_zero, View.ld_unit_zero (S := S1024x4096) origin_zero,
    View.ld_unit_zero (S := S1x1024) origin_zero]
  funext j
  obtain ⟨p, q, rfl⟩ : ∃ (p : Fin 512) (q : Fin 1024), j = ix2 (n0 := 512) (n1 := 1024) p q := ⟨j 0, j 1, eq_ix2 j⟩
  obtain ⟨-, -, -, -, -, -, b0, b1⟩ := tile_index t
  have hr : win0_3.index t (0 : Fin 2) * 512 + p.val < 8192 := by have := p.isLt; omega
  have ho : win0_3.index t (1 : Fin 2) * 1024 + q.val < 16384 := by have := q.isLt; omega
  have hemb : ((cfg0.win 3).blk t).view.emb (ix2 (n0 := 512) (n1 := 1024) p q)
      = ix2 (n0 := 8192) (n1 := 16384) ⟨_, hr⟩ ⟨_, ho⟩ := by
    funext a
    apply Fin.ext
    match a with
    | ⟨0, _⟩ => show win0_3.index t (0 : Fin 2) * 512 + 1 * p.val = win0_3.index t (0 : Fin 2) * 512 + p.val; omega
    | ⟨1, _⟩ => show win0_3.index t (1 : Fin 2) * 1024 + 1 * q.val = win0_3.index t (1 : Fin 2) * 1024 + q.val; omega
  show k0_pay1 (F := Ideal) (iblk m c 0 t) (iblk m c 1 t) (iblk m c 2 t) (ix2 (n0 := 512) (n1 := 1024) p q)
      = denseFlat (xFound m c) (wFound m c) (bFound m c) (((cfg0.win 3).blk t).view.emb (ix2 (n0 := 512) (n1 := 1024) p q))
  rw [hemb]
  refine (stored_apply (iblk m c 0 t) (iblk m c 1 t) (iblk m c 2 t) p q).trans ?_
  show _ = (∑ k : Fin 4096, xFound m c (ix2 (n0 := 8192) (n1 := 4096) ⟨_, hr⟩ k) * wFound m c (ix2 (n0 := 16384) (n1 := 4096) ⟨_, ho⟩ k))
      + bFound m c (ix2 (n0 := 1) (n1 := 16384) 0 ⟨_, ho⟩)
  refine congrArg₂ (· + ·) (Finset.sum_congr rfl fun k _ => ?_) (bblk_apply m c t q ⟨_, ho⟩ rfl)
  rw [xblk_apply m c t p k ⟨_, hr⟩ rfl, wblk_apply m c t q k ⟨_, ho⟩ rfl]

/-! ## The tiles cover the result array -/

/-- An index of the result array is in point t's tile iff each coordinate is in the tile's range. -/
theorem mem_tile (t : Fin cfg0.N) (i : S8192x16384.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4).slice (win0_3.rect t)).set ↔ _
  rw [View.set_slice_whole, Rect.mem_set_unit]
  exact Iff.rfl

/-- Every index of the result array lies in the tile (row / 512, column / 1024), which some point writes back. -/
theorem covered (i : S8192x16384.Idx) :
    ∃ t : Fin cfg0.N, (cfg0.win 3).flush t = true ∧ i ∈ ((cfg0.win 3).blk t).view.set := by
  have hi0 : (i 0).val < 8192 := (i 0).isLt
  have hi1 : (i 1).val < 16384 := (i 1).isLt
  obtain ⟨t, ht⟩ := tile_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_tile]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-! ## The region's result -/

/-- After the last write-back the result array is `denseFlat` of the three arrays as the region found them. -/
theorem region_result (c : Dev nD) :
    (dats m 0 c).arrAt 3 cfg0.N = denseFlat (xFound m c) (wFound m c) (bFound m c) :=
  (dats m 0 c).arrAt_eq_of_cover 3 (denseFlat (xFound m c) (wFound m c) (bFound m c)) (fun t _ => flushed_eq m c t) covered

end Cert.KernelIdeal.TileValue

end
-- ==== Proof.HostEnds.lean ====
/-
  The host operations around the tiled product, read entry by entry over the extended reals.

  Before the product: the input's two leading axes are merged (row r = 2·s + b of the merged array is row (s, b) of the
  input, in row-major order) and its entries narrowed to a shorter float format, which over the extended reals changes
  nothing; the weight is narrowed likewise; the bias becomes a one-row matrix. After it: the 8192 × 16384 result is split
  back, entry (s, b, o) of the final array being entry (2·s + b, o) of the product's.
-/
import proofs.«150197_j25958782337557_1_alg».proof.Proof.Gen.KernelIdeal.Frame
import proofs.«150197_j25958782337557_1_alg».proof.Proof.AffineSpec
import Idealize.ShloMosaic.Lib.StableHlo.Run
import Idealize.ShloMosaic.Lib.Pipeline.Value
import Idealize.ShloMosaic.Lib.ValueIdx

noncomputable section

open Idealize.ShloMosaic Idealize.ShloMosaic.TcCoe Idealize.SL.Sem Idealize.ShloMosaic.StableHlo
open Idealize.ShloMosaic.Pipeline (Dat)

namespace Cert.KernelIdeal.HostEnds

open Cert.KernelIdeal Cert.KernelIdeal.Gen Cert.Affine Idealize.ShloMosaic.ValueIdx

variable (m : (ℓ : Loc nD τ sig) → Buf (Elt Ideal) ℓ)

/-! ## What the region finds -/

/-- Row r = 2·s + b, column k of the input as the region finds it is entry (s, b, k) of the argument. -/
theorem found_x_apply (c : Dev nD) (s : Fin 4096) (b : Fin 2) (k : Fin 4096) (r : Fin 8192) (hr : r.val = s.val * 2 + b.val) :
    (V m c main_v1 : X2.Idx → EReal) (ix2 (n0 := 8192) (n1 := 4096) r k)
      = (m ((c : Thread nD τ).loc main_arg0) : X3.Idx → EReal) (ix3 (n0 := 4096) (n1 := 2) (n2 := 4096) s b k) := by
  have e : (V m c main_v1 : X2.Idx → EReal)
      = truncf (F := Ideal) .bf16 (shapeCast S8192x4096 (m ((c : Thread nD τ).loc main_arg0)) shapeCasts_S4096x2x4096_S8192x4096) bitsLt_bf16_f32 := by
    show StableHlo.after hostOps0 (fun b => m (c, b)) (Proc.devRef .tc main_v1) = _
    after_results
    rfl
  rw [e, truncf_apply]
  refine shapeCast_apply _ _ _ _ ?_
  show (X3.rowMajor (ix3 (n0 := 4096) (n1 := 2) (n2 := 4096) s b k)).val = (X2.rowMajor (ix2 (n0 := 8192) (n1 := 4096) r k)).val
  rw [Shape.rowMajor_val_three, Shape.rowMajor_val_two]
  show (s.val * 2 + b.val) * 4096 + k.val = r.val * 4096 + k.val
  rw [hr]

/-- The weight as the region finds it is the argument: narrowing the format changes no extended real. -/
theorem found_w (c : Dev nD) : (V m c main_v2 : W2.Idx → EReal) = (m ((c : Thread nD τ).loc main_arg1) : W2.Idx → EReal) := by
  have e : (V m c main_v2 : W2.Idx → EReal) = truncf (F := Ideal) .bf16 (m ((c : Thread nD τ).loc main_arg1)) bitsLt_bf16_f32 := by
    show StableHlo.after hostOps0 (fun b => m (c, b)) (Proc.devRef .tc main_v2) = _
    after_results
  exact e.trans (funext fun i => truncf_apply _ _ i)

/-- Column o of the one-row bias as the region finds it is entry o of the argument. -/
theorem found_b_apply (c : Dev nD) (o : Fin 16384) :
    (V m c main_v3 : B2.Idx → EReal) (ix2 (n0 := 1) (n1 := 16384) 0 o) = (m ((c : Thread nD τ).loc main_arg2) : B1.Idx → EReal) (ix1 (n := 16384) o) := by
  have e : (V m c main_v3 : B2.Idx → EReal) = shapeCast S1x16384 (m ((c : Thread nD τ).loc main_arg2)) shapeCasts_S16384_S1x16384 := by
    show StableHlo.after hostOps0 (fun b => m (c, b)) (Proc.devRef .tc main_v3) = _
    after_results
    rfl
  rw [e]
  refine shapeCast_apply _ _ _ _ ?_
  show (B1.rowMajor (ix1 (n := 16384) o)).val = (B2.rowMajor (ix2 (n0 := 1) (n1 := 16384) 0 o)).val
  rw [Shape.rowMajor_val_one, Shape.rowMajor_val_two]
  show o.val = 0 * 16384 + o.val
  omega

/-! ## What the program returns -/

/-- Entry (s, b, o) of the returned array is entry (2·s + b, o) of the array the tiled product left. -/
theorem returned_apply (c : Dev nD) (s : Fin 4096) (b : Fin 2) (o : Fin 16384) (r : Fin 8192) (hr : r.val = s.val * 2 + b.val) :
    (Pipeline.afterTail₀ cfgs (dats m) 0 (V0 m) [hostOps1] c main_v5 : O3.Idx → EReal) (ix3 (n0 := 4096) (n1 := 2) (n2 := 16384) s b o)
      = ((dats m 0 c).arrAt 3 cfg0.N : O2.Idx → EReal) (ix2 (n0 := 8192) (n1 := 16384) r o) := by
  have e : (Pipeline.afterTail₀ cfgs (dats m) 0 (V0 m) [hostOps1] c main_v5 : O3.Idx → EReal)
      = shapeCast S4096x2x16384 ((dats m 0 c).arrAt 3 cfg0.N : O2.Idx → EReal) shapeCasts_S8192x16384_S4096x2x16384 := by
    unfold Pipeline.afterTail₀
    show StableHlo.after hostOps1 _ (Proc.devRef .tc main_v5) = _
    after_results
    have h3 : (Pipeline.withArrays spec0 c (V0 m c) (fun w => (dats m 0 c).arrAt w cfg0.N) (Proc.devRef .tc main_v4) : O2.Idx → EReal)
        = (dats m 0 c).arrAt 3 cfg0.N := Pipeline.withArrays_arr spec0 launch0.win.arr_inj c _ _ 3
    exact congrArg (fun a : O2.Idx → EReal => shapeCast S4096x2x16384 a shapeCasts_S8192x16384_S4096x2x16384) h3
  rw [e]
  refine shapeCast_apply _ _ _ _ ?_
  show (O2.rowMajor (ix2 (n0 := 8192) (n1 := 16384) r o)).val = (O3.rowMajor (ix3 (n0 := 4096) (n1 := 2) (n2 := 16384) s b o)).val
  rw [Shape.rowMajor_val_two, Shape.rowMajor_val_three]
  show r.val * 16384 + o.val = (s.val * 2 + b.val) * 16384 + o.val
  rw [hr]

end Cert.KernelIdeal.HostEnds

end
-- ==== Proof.KernelDense.lean ====
/-
  The idealized kernel program's result, as one function of its arguments: the dense layer `Cert.Affine.dense`.

  The returned array's entry (s, b, o) is entry (2·s + b, o) of the tiled product's result array, which is `denseFlat` of
  the three arrays the product found; row 2·s + b of the input found is row (s, b) of the argument, the weight found is
  the argument, the one-row bias found is the argument. So the entry is (Σ_k x[s, b, k] · w[o, k]) + bias[o]
  (`Cert.Affine.denseFlat_row`). The run below restates the program's run with its result array named so.
-/
import proofs.«150197_j25958782337557_1_alg».proof.Proof.Gen.KernelIdeal.Frame
import proofs.«150197_j25958782337557_1_alg».proof.Proof.AffineSpec
import proofs.«150197_j25958782337557_1_alg».proof.Proof.Tiles
import proofs.«150197_j25958782337557_1_alg».proof.Proof.HostEnds

noncomputable section

open Idealize.ShloMosaic Idealize.ShloMosaic.TcCoe Idealize.SL.Sem
open Idealize.ShloMosaic.Pipeline (Dat)

namespace Cert.KernelIdeal.DenseValue

open Cert.KernelIdeal Cert.KernelIdeal.Gen Cert.KernelIdeal.TileValue Cert.KernelIdeal.HostEnds Cert.Affine Idealize.ShloMosaic.ValueIdx

variable (m : (ℓ : Loc nD τ sig) → Buf (Elt Ideal) ℓ) (ρ : Dev nD → PrngReg)

/-- What the program returns is the dense layer of its three arguments. -/
theorem returned_eq_dense (c : Dev nD) :
    (Pipeline.afterTail₀ cfgs (dats m) 0 (V0 m) [hostOps1] c main_v5 : O3.Idx → EReal)
      = dense (m ((c : Thread nD τ).loc main_arg0)) (m ((c : Thread nD τ).loc main_arg1)) (m ((c : Thread nD τ).loc main_arg2)) := by
  funext i
  obtain ⟨s, b, o, rfl⟩ : ∃ (s : Fin 4096) (b : Fin 2) (o : Fin 16384), i = ix3 (n0 := 4096) (n1 := 2) (n2 := 16384) s b o :=
    ⟨i 0, i 1, i 2, eq_ix3 i⟩
  have hr : s.val * 2 + b.val < 8192 := by have := s.isLt; have := b.isLt; omega
  have hw : wFound m c = (m ((c : Thread nD τ).loc main_arg1) : W2.Idx → EReal) := found_w m c
  rw [returned_apply m c s b o ⟨_, hr⟩ rfl, region_result m c, hw]
  exact denseFlat_row (m ((c : Thread nD τ).loc main_arg0)) (m ((c : Thread nD τ).loc main_arg1)) (m ((c : Thread nD τ).loc main_arg2))
    (xFound m c) (bFound m c) s b o ⟨_, hr⟩ rfl (fun k => found_x_apply m c s b k ⟨_, hr⟩ rfl) (found_b_apply m c o)

/-- The program's run, read: every weakly fair execution ends with the result array at the dense layer of the arguments and
    the arguments as they were. -/
theorem run : θ_run defs (onTc (τ := τ) (main (F := Ideal))) ⟨m, fun _ => 0, ρ⟩ fun r => ∀ c : Dev nD,
      r.2.mem ((c.tc : Thread nD τ).loc main_v5)
        = dense (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v5 (Pipeline.mem_restRefs_of main_v5 (by decide) (by decide))).trans (returned_eq_dense m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.DenseValue

end
-- ==== Proof.lean ====
/-
  A dense layer with bias, out[s, b, o] = (Σ_{k < 4096} x[s, b, k] · w[o, k]) + bias[o] over x : [4096, 2, 4096],
  w : [16384, 4096], bias : [16384], computed two ways and proved to be one function over the extended reals.

  The kernel program merges x's two leading axes into 8192 rows, narrows x and w to a shorter float format (the identity
  on extended reals), and forms the 8192 × 16384 product tile by tile on a 16 × 16 grid: each point multiplies a
  512 × 4096 block of rows of x by the transpose of a 1024 × 4096 block of rows of w into a zero accumulator and adds the
  matching 1024 bias entries to every row; the result is split back into [4096, 2, 16384]. The reference contracts x's
  last axis with w's last axis in one operation and adds the bias stretched over the two leading axes.

  Both are the same sum of the same products over the same index set followed by the same addition, so no entry has to
  be finite: the precondition is never opened. The pieces:
    Proof/AffineSpec.lean    the function (`dense`), its row-merged form (`denseFlat`), and that they agree row by row;
    Proof/RefDense.lean      the reference's result is `dense` of its arguments;
    Proof/BlockProduct.lean  one grid point's stored block, entry by entry;
    Proof/Tiles.lean         every point writes its tile of `denseFlat`, the tiles cover the array;
    Proof/HostEnds.lean      the merge, the narrowings and the final split, entry by entry;
    Proof/KernelDense.lean   the kernel program's result is `dense` of its arguments, and its run restated so.
  The three frames are the generated frame runs (the reference's is its generated run with the result dropped); the
  idealization rewrote nothing, so that conjunct is trivial.
-/
import proofs.«150197_j25958782337557_1_alg».proof.Defs
import proofs.«150197_j25958782337557_1_alg».proof.Proof.Gen.Kernel
import proofs.«150197_j25958782337557_1_alg».proof.Proof.Gen.Kernel.Skeleton
import proofs.«150197_j25958782337557_1_alg».proof.Proof.Gen.Kernel.Launch
import proofs.«150197_j25958782337557_1_alg».proof.Proof.Gen.Kernel.Points
import proofs.«150197_j25958782337557_1_alg».proof.Proof.Gen.Kernel.Frame
import proofs.«150197_j25958782337557_1_alg».proof.Proof.Gen.KernelIdeal
import proofs.«150197_j25958782337557_1_alg».proof.Proof.Gen.KernelIdeal.Skeleton
import proofs.«150197_j25958782337557_1_alg».proof.Proof.Gen.KernelIdeal.Launch
import proofs.«150197_j25958782337557_1_alg».proof.Proof.Gen.KernelIdeal.Points
import proofs.«150197_j25958782337557_1_alg».proof.Proof.Gen.KernelIdeal.Frame
import proofs.«150197_j25958782337557_1_alg».proof.Proof.Gen.ReferenceIdeal
import proofs.«150197_j25958782337557_1_alg».proof.Proof.Gen.ReferenceIdeal.Run
import proofs.«150197_j25958782337557_1_alg».proof.Proof.Gen.ReferenceIdeal.Read
import proofs.«150197_j25958782337557_1_alg».proof.Proof.Gen.Pre_finite_inputs
import proofs.«150197_j25958782337557_1_alg».proof.Proof.AffineSpec
import proofs.«150197_j25958782337557_1_alg».proof.Proof.RefDense
import proofs.«150197_j25958782337557_1_alg».proof.Proof.KernelDense
import Idealize.ShloMosaic.Adequacy
import Idealize.ShloMosaic.Init

noncomputable section

namespace Cert.Proof

open Idealize.ShloMosaic Idealize.SL.Sem

/-- The word-level kernel program runs and keeps its arguments: its generated frame run. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference runs and keeps its arguments: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs, from memories that agree on the arguments, end with the result array at the dense layer of
    those arguments: the kernel program by its run read tile by tile, the reference by its run read index by index. -/
theorem algebraic : Cert.algebraic_KernelIdeal_ReferenceIdeal := by
  intro m ρ m' ρ' _ hagree
  refine ⟨fun c => Cert.Affine.dense (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.DenseValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.result_eq_dense,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
